-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4x128x512 : Shape := ⟨3, ![4, 128, 512]⟩
abbrev S1024x1024 : Shape := ⟨2, ![1024, 1024]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x128x512 : S_.BroadcastsInDim S4x128x512 (![] : Fin 0 → Fin S4x128x512.rank)
  reducesTo_S4x128x512_S_d0_1_2 : S4x128x512.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S4x512x512 .f32) (main_arg1 : FVec F S4x128x512 .f32) (main_arg2 : FVec F S1024x1024 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x128x512 .f32 := Host.absf main_arg1
  let main_cst_0 : FVec F S_ .f32 := constant S_ .f32 0x7F800000#32
  let main_v5 : FVec F S4x128x512 .f32 := broadcastInDim S4x128x512 ![] bcast_S_S4x128x512 main_cst_0
  let main_v6 : IVec S4x128x512 1 := cmpf .olt main_v4 main_v5
  let main_c_1 : IVec S_ 1 := constantI S_ 1 1#1
  let main_v7 : IVec S_ 1 := (fun x v => Host.reduce IntOp.andi x v reducesTo_S4x128x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S4x512x512 : Shape := ⟨3, ![4, 512, 512]⟩
abbrev S4x128x512 : Shape := ⟨3, ![4, 128, 512]⟩
abbrev S1024x1024 : Shape := ⟨2, ![1024, 1024]⟩
abbrev S1024x512 : Shape := ⟨2, ![1024, 512]⟩
abbrev S4x512x128x1024 : Shape := ⟨4, ![4, 512, 128, 1024]⟩
abbrev S1x16x512 : Shape := ⟨3, ![1, 16, 512]⟩
abbrev S1x128x512 : Shape := ⟨3, ![1, 128, 512]⟩
abbrev S1x16x128x1024 : Shape := ⟨4, ![1, 16, 128, 1024]⟩
abbrev S128x1024 : Shape := ⟨2, ![128, 1024]⟩
abbrev S128x512 : Shape := ⟨2, ![128, 512]⟩
abbrev S16x512 : Shape := ⟨2, ![16, 512]⟩
abbrev S16x1024 : Shape := ⟨2, ![16, 1024]⟩
abbrev S16x1x1024 : Shape := ⟨3, ![16, 1, 1024]⟩
abbrev S1x128x1024 : Shape := ⟨3, ![1, 128, 1024]⟩
abbrev S16x128x1024 : Shape := ⟨3, ![16, 128, 1024]⟩

abbrev nBuf : Space → Nat
  | .hbm => 10
  | .vmem => 9
  | .smem => 0
  | _ => 0

abbrev bufTy : (tb : Table) → Fin (tcTables nBuf tb) → BufTy
  | .hbm, ⟨0, _⟩ => ⟨S4x512x512, .f32⟩
  | .hbm, ⟨1, _⟩ => ⟨S4x128x512, .f32⟩
  | .hbm, ⟨2, _⟩ => ⟨S1024x1024, .f32⟩
  | .hbm, ⟨3, _⟩ => ⟨S1024x512, .f32⟩
  | .hbm, ⟨4, _⟩ => ⟨S1024x512, .bf16⟩
  | .hbm, ⟨5, _⟩ => ⟨S1024x512, .f32⟩
  | .hbm, ⟨6, _⟩ => ⟨S1024x512, .bf16⟩
  | .hbm, ⟨7, _⟩ => ⟨S4x512x512, .bf16⟩
  | .hbm, ⟨8, _⟩ => ⟨S4x128x512, .bf16⟩
  | .hbm, ⟨9, _⟩ => ⟨S4x512x128x1024, .f32⟩
  | .local _ .vmem, ⟨0, _⟩ => ⟨S1x16x512, .bf16⟩
  | .local _ .vmem, ⟨1, _⟩ => ⟨S1x16x512, .bf16⟩
  | .local _ .vmem, ⟨2, _⟩ => ⟨S1x128x512, .bf16⟩
  | .local _ .vmem, ⟨3, _⟩ => ⟨S1x128x512, .bf16⟩
  | .local _ .vmem, ⟨4, _⟩ => ⟨S1024x512, .bf16⟩
  | .local _ .vmem, ⟨5, _⟩ => ⟨S1024x512, .bf16⟩
  | .local _ .vmem, ⟨6, _⟩ => ⟨S1x16x128x1024, .f32⟩
  | .local _ .vmem, ⟨7, _⟩ => ⟨S1x16x128x1024, .f32⟩
  | .local _ .vmem, ⟨8, _⟩ => ⟨S128x1024, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S1024x1024_S1024x512_0_0 : S1024x1024.Slices ![0, 0] S1024x512
  bitsLt_bf16_f32 : FTy.bits .bf16 < FTy.bits .f32
  slices_S1024x1024_S1024x512_0_512 : S1024x1024.Slices ![0, 512] S1024x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  shapeCasts_S16x1024_S16x1x1024 : S16x1024.ShapeCasts S16x1x1024
  shapeCasts_S128x1024_S1x128x1024 : S128x1024.ShapeCasts S1x128x1024
  broadcasts_S16x1x1024_S16x128x1024 : S16x1x1024.Broadcasts S16x128x1024
  broadcasts_S1x128x1024_S16x128x1024 : S1x128x1024.Broadcasts S16x128x1024
  inb_S1x16x128x1024_S1x16x128x1024_0_0_0_0 : ∀ a, (![0, 0, 0, 0] : Fin 4 → Nat) a + S1x16x128x1024.size a ≤ S1x16x128x1024.size a
  h_S1x16x128x1024 : 0 < S1x16x128x1024.numel
  shapeCasts_S1x16x128x1024_S16x128x1024 : S1x16x128x1024.ShapeCasts S16x128x1024
  shapeCasts_S16x128x1024_S1x16x128x1024 : S16x128x1024.ShapeCasts S1x16x128x1024
  dot_S128x512_S1024x512_S128x1024_1_1_0_0_n_n_wf : DotDims.WF S128x512 S1024x512 S128x1024 [1] [1] [0] [0] [] []
  dot_S16x512_S1024x512_S16x1024_1_1_0_0_n_n_wf : DotDims.WF S16x512 S1024x512 S16x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S4x512x512.size a
  hwx0_0 : ∀ i : grid0.Coords, EltTy.bits .bf16 = 32 ∨ (Rect.block (s := S4x512x512) S1x16x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S4x128x512.size a
  hwx0_1 : ∀ i : grid0.Coords, EltTy.bits .bf16 = 32 ∨ (Rect.block (s := S4x128x512) S1x128x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .bf16 = 32 ∨ (Rect.block (s := S1024x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x128x1024.size a ≤ S4x512x128x1024.size a
  hwx0_4 : ∀ i : grid0.Coords, EltTy.bits .f32 = 32 ∨ (Rect.block (s := S4x512x128x1024) S1x16x128x1024.size (cc0_transform_4 i) (hinb0_4 i)).WholeWords (EltTy.packing .f32)

variable [Facts₀]

def dot_S128x512_S1024x512_S128x1024_1_1_0_0_n_n : DotDims S128x512 S1024x512 S128x1024 where
  lhsContracting := [1]
  rhsContracting := [1]
  lhsNonContracting := [0]
  rhsNonContracting := [0]
  lhsBatch := []
  rhsBatch := []
  wf := dot_S128x512_S1024x512_S128x1024_1_1_0_0_n_n_wf
def dot_S16x512_S1024x512_S16x1024_1_1_0_0_n_n : DotDims S16x512 S1024x512 S16x1024 where
  lhsContracting := [1]
  rhsContracting := [1]
  lhsNonContracting := [0]
  rhsNonContracting := [0]
  lhsBatch := []
  rhsBatch := []
  wf := dot_S16x512_S1024x512_S16x1024_1_1_0_0_n_n_wf

abbrev win0_0 : Pipeline.Window sig grid0 :=
  Pipeline.Window.ofSpec (Memref.whole main_v4) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x16x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S4x128x512 : Shape := ⟨3, ![4, 128, 512]⟩
abbrev S1024x1024 : Shape := ⟨2, ![1024, 1024]⟩
abbrev S1024x512 : Shape := ⟨2, ![1024, 512]⟩
abbrev S4x512x1024 : Shape := ⟨3, ![4, 512, 1024]⟩
abbrev S4x128x1024 : Shape := ⟨3, ![4, 128, 1024]⟩
abbrev S4x512x1x1024 : Shape := ⟨4, ![4, 512, 1, 1024]⟩
abbrev S4x1x128x1024 : Shape := ⟨4, ![4, 1, 128, 1024]⟩
abbrev S4x512x128x1024 : Shape := ⟨4, ![4, 512, 128, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x128x512, .f32⟩
  | .hbm, ⟨2, _⟩ => ⟨S1024x1024, .f32⟩
  | .hbm, ⟨3, _⟩ => ⟨S1024x512, .f32⟩
  | .hbm, ⟨4, _⟩ => ⟨S1024x512, .f32⟩
  | .hbm, ⟨5, _⟩ => ⟨S4x512x1024, .f32⟩
  | .hbm, ⟨6, _⟩ => ⟨S4x128x1024, .f32⟩
  | .hbm, ⟨7, _⟩ => ⟨S4x512x1x1024, .f32⟩
  | .hbm, ⟨8, _⟩ => ⟨S4x1x128x1024, .f32⟩
  | .hbm, ⟨9, _⟩ => ⟨S4x512x128x1024, .f32⟩
  | .hbm, ⟨10, _⟩ => ⟨S4x512x128x1024, .f32⟩
  | .hbm, ⟨11, _⟩ => ⟨S4x512x128x1024, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S1024x1024_S1024x512_0_0 : S1024x1024.Slices ![0, 0] S1024x512
  slices_S1024x1024_S1024x512_0_512 : S1024x1024.Slices ![0, 512] S1024x512
  bcast_S4x512x1024_S4x512x1x1024_0_1_3 : S4x512x1024.BroadcastsInDim S4x512x1x1024 (![0, 1, 3] : Fin 3 → Fin S4x512x1x1024.rank)
  bcast_S4x128x1024_S4x1x128x1024_0_2_3 : S4x128x1024.BroadcastsInDim S4x1x128x1024 (![0, 2, 3] : Fin 3 → Fin S4x1x128x1024.rank)
  bcast_S4x512x1x1024_S4x512x128x1024_0_1_2_3 : S4x512x1x1024.BroadcastsInDim S4x512x128x1024 (![0, 1, 2, 3] : Fin 4 → Fin S4x512x128x1024.rank)
  bcast_S4x1x128x1024_S4x512x128x1024_0_1_2_3 : S4x1x128x1024.BroadcastsInDim S4x512x128x1024 (![0, 1, 2, 3] : Fin 4 → Fin S4x512x128x1024.rank)
  dot_S4x512x512_S1024x512_S4x512x1024_2_1_01_0_n_n_wf : DotDims.WF S4x512x512 S1024x512 S4x512x1024 [2] [1] [0, 1] [0] [] []
  dot_S4x128x512_S1024x512_S4x128x1024_2_1_01_0_n_n_wf : DotDims.WF S4x128x512 S1024x512 S4x128x1024 [2] [1] [0, 1] [0] [] []

variable [Facts₀]

def dot_S4x512x512_S1024x512_S4x512x1024_2_1_01_0_n_n : DotDims S4x512x512 S1024x512 S4x512x1024 where
  lhsContracting := [2]
  rhsContracting := [1]
  lhsNonContracting := [0, 1]
  rhsNonContracting := [0]
  lhsBatch := []
  rhsBatch := []
  wf := dot_S4x512x512_S1024x512_S4x512x1024_2_1_01_0_n_n_wf
def dot_S4x128x512_S1024x512_S4x128x1024_2_1_01_0_n_n : DotDims S4x128x512 S1024x512 S4x128x1024 where
  lhsContracting := [2]
  rhsContracting := [1]
  lhsNonContracting := [0, 1]
  rhsNonContracting := [0]
  lhsBatch := []
  rhsBatch := []
  wf := dot_S4x128x512_S1024x512_S4x128x1024_2_1_01_0_n_n_wf

class Facts : Prop extends Facts₀ where

variable [Facts]
-- ==== Proof.JointSpec.lean ====
/-
  The function both programs compute, written once over the three argument arrays.

  With `enc : [4, 512, 512]`, `dec : [4, 128, 512]` and the fused weight `w : [1024, 1024]` (row `v`, its first 512
  columns acting on the encoder features and its last 512 on the decoder features), the joint network's output is

      out[b, t, u, v] = (∑ d, enc[b, t, d] · w[v, d]) + (∑ d, dec[b, u, d] · w[v, 512 + d]).

  The first sum does not depend on `u`, the second does not depend on `t`.  Everything is an extended real: the sums are
  finite sums in `EReal`, and nothing below needs the inputs to be finite, because the two programs add up the very same
  products in the very same order of the summation index.
-/
import Idealize.ShloMosaic.PureOps.Ideal
import Idealize.ShloMosaic.Lib.ValueIdx

noncomputable section

open scoped BigOperators

namespace Cert.Joint

open Idealize.ShloMosaic Idealize.ShloMosaic.ValueIdx

/-- Column `d` of the weight's encoder half. -/
abbrev encCol (d : Fin 512) : Fin 1024 := ⟨d.val, by have := d.isLt; omega⟩
/-- Column `d` of the weight's decoder half: `512 + d`. -/
abbrev decCol (d : Fin 512) : Fin 1024 := ⟨512 + d.val, by have := d.isLt; omega⟩

/-- The encoder projection: row `(b, t)` of `enc` against row `v` of the weight's first 512 columns. -/
def encProj (enc : (⟨3, ![4, 512, 512]⟩ : Shape).Idx → EReal) (w : (⟨2, ![1024, 1024]⟩ : Shape).Idx → EReal)
    (b : Fin 4) (t : Fin 512) (v : Fin 1024) : EReal :=
  ∑ d : Fin 512, enc (ix3 b t d) * w (ix2 v (encCol d))

/-- The decoder projection: row `(b, u)` of `dec` against row `v` of the weight's last 512 columns. -/
def decProj (dec : (⟨3, ![4, 128, 512]⟩ : Shape).Idx → EReal) (w : (⟨2, ![1024, 1024]⟩ : Shape).Idx → EReal)
    (b : Fin 4) (u : Fin 128) (v : Fin 1024) : EReal :=
  ∑ d : Fin 512, dec (ix3 b u d) * w (ix2 v (decCol d))

/-- The joint output: the encoder projection at `(b, t, v)` plus the decoder projection at `(b, u, v)`. -/
def joint (enc : (⟨3, ![4, 512, 512]⟩ : Shape).Idx → EReal) (dec : (⟨3, ![4, 128, 512]⟩ : Shape).Idx → EReal)
    (w : (⟨2, ![1024, 1024]⟩ : Shape).Idx → EReal) : (⟨4, ![4, 512, 128, 1024]⟩ : Shape).Idx → EReal :=
  fun i => encProj enc w (i 0) (i 1) (i 3) + decProj dec w (i 0) (i 2) (i 3)

theorem joint_ix4 (enc : (⟨3, ![4, 512, 512]⟩ : Shape).Idx → EReal) (dec : (⟨3, ![4, 128, 512]⟩ : Shape).Idx → EReal)
    (w : (⟨2, ![1024, 1024]⟩ : Shape).Idx → EReal) (b : Fin 4) (t : Fin 512) (u : Fin 128) (v : Fin 1024) :
    joint enc dec w (ix4 b t u v) = encProj enc w b t v + decProj dec w b u v := rfl

end Cert.Joint

end
-- ==== Proof.KernelPayload.lean ====
/-
  The two values the kernel body stores, read at one index, on the extended reals.

  The body has two matrix products, each of a block of rows against ALL 1024 rows of a weight half, contracted over the
  512 features (`x @ Wᵀ`): the decoder block `[128, 512]` (stored into the scratch, once per batch entry) and the
  encoder tile `[16, 512]`.  Read at an index, a matrix product into the zero accumulator is the plain sum over the
  feature index of the products of the two operands' entries.  The output tile is the encoder product broadcast along
  the decoder axis plus the scratch broadcast along the tile's row axis: at `(t, u, v)` it is
  `(∑ d, x[t, d] · w[v, d]) + scratch[u, v]`.
-/
import proofs.«122374_j47897475285549_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The operand indices of the two products, axis by axis -/

theorem dec_lhs_0 (i : S128x1024.Idx) (q : dot_S128x512_S1024x512_S128x1024_1_1_0_0_n_n.contr.Idx) :
    (dot_S128x512_S1024x512_S128x1024_1_1_0_0_n_n.lhsIdx i q 0).val = (i 0).val := by
  unfold DotDims.lhsIdx
  rw [dif_neg (show ¬(0 : Fin S128x512.rank) ∈ dot_S128x512_S1024x512_S128x1024_1_1_0_0_n_n.lhsBatch by decide), dif_pos (show (0 : Fin S128x512.rank) ∈ dot_S128x512_S1024x512_S128x1024_1_1_0_0_n_n.lhsNonContracting by decide)]
  rfl
theorem dec_lhs_1 (i : S128x1024.Idx) (q : dot_S128x512_S1024x512_S128x1024_1_1_0_0_n_n.contr.Idx) :
    (dot_S128x512_S1024x512_S128x1024_1_1_0_0_n_n.lhsIdx i q 1).val = (q ⟨0, by decide⟩).val :=
  dot_S128x512_S1024x512_S128x1024_1_1_0_0_n_n.lhsIdx_val_of_single rfl i q
theorem dec_rhs_0 (i : S128x1024.Idx) (q : dot_S128x512_S1024x512_S128x1024_1_1_0_0_n_n.contr.Idx) :
    (dot_S128x512_S1024x512_S128x1024_1_1_0_0_n_n.rhsIdx i q 0).val = (i 1).val := by
  unfold DotDims.rhsIdx
  rw [dif_neg (show ¬(0 : Fin S1024x512.rank) ∈ dot_S128x512_S1024x512_S128x1024_1_1_0_0_n_n.rhsBatch by decide), dif_pos (show (0 : Fin S1024x512.rank) ∈ dot_S128x512_S1024x512_S128x1024_1_1_0_0_n_n.rhsNonContracting by decide)]
  rfl
theorem dec_rhs_1 (i : S128x1024.Idx) (q : dot_S128x512_S1024x512_S128x1024_1_1_0_0_n_n.contr.Idx) :
    (dot_S128x512_S1024x512_S128x1024_1_1_0_0_n_n.rhsIdx i q 1).val = (q ⟨0, by decide⟩).val :=
  dot_S128x512_S1024x512_S128x1024_1_1_0_0_n_n.rhsIdx_val_of_single rfl i q

theorem enc_lhs_0 (i : S16x1024.Idx) (q : dot_S16x512_S1024x512_S16x1024_1_1_0_0_n_n.contr.Idx) :
    (dot_S16x512_S1024x512_S16x1024_1_1_0_0_n_n.lhsIdx i q 0).val = (i 0).val := by
  unfold DotDims.lhsIdx
  rw [dif_neg (show ¬(0 : Fin S16x512.rank) ∈ dot_S16x512_S1024x512_S16x1024_1_1_0_0_n_n.lhsBatch by decide), dif_pos (show (0 : Fin S16x512.rank) ∈ dot_S16x512_S1024x512_S16x1024_1_1_0_0_n_n.lhsNonContracting by decide)]
  rfl
theorem enc_lhs_1 (i : S16x1024.Idx) (q : dot_S16x512_S1024x512_S16x1024_1_1_0_0_n_n.contr.Idx) :
    (dot_S16x512_S1024x512_S16x1024_1_1_0_0_n_n.lhsIdx i q 1).val = (q ⟨0, by decide⟩).val :=
  dot_S16x512_S1024x512_S16x1024_1_1_0_0_n_n.lhsIdx_val_of_single rfl i q
theorem enc_rhs_0 (i : S16x1024.Idx) (q : dot_S16x512_S1024x512_S16x1024_1_1_0_0_n_n.contr.Idx) :
    (dot_S16x512_S1024x512_S16x1024_1_1_0_0_n_n.rhsIdx i q 0).val = (i 1).val := by
  unfold DotDims.rhsIdx
  rw [dif_neg (show ¬(0 : Fin S1024x512.rank) ∈ dot_S16x512_S1024x512_S16x1024_1_1_0_0_n_n.rhsBatch by decide), dif_pos (show (0 : Fin S1024x512.rank) ∈ dot_S16x512_S1024x512_S16x1024_1_1_0_0_n_n.rhsNonContracting by decide)]
  rfl
theorem enc_rhs_1 (i : S16x1024.Idx) (q : dot_S16x512_S1024x512_S16x1024_1_1_0_0_n_n.contr.Idx) :
    (dot_S16x512_S1024x512_S16x1024_1_1_0_0_n_n.rhsIdx i q 1).val = (q ⟨0, by decide⟩).val :=
  dot_S16x512_S1024x512_S16x1024_1_1_0_0_n_n.rhsIdx_val_of_single rfl i q

/-! ## The two products at an index -/

/-- The decoder block's product at `(u, v)`: row `u` of the block against row `v` of the weight half. -/
theorem dec_matmul_apply (l : FVec Ideal S128x512 .bf16) (r : FVec Ideal S1024x512 .bf16) (p : Fin 128) (v : Fin 1024) :
    matmul dot_S128x512_S1024x512_S128x1024_1_1_0_0_n_n none l r (constant (F := Ideal) S128x1024 .f32 0x00000000#32) (ix2 p v)
      = ∑ d : Fin 512, l (ix2 p d) * r (ix2 v d) := by
  simp only [matmul]
  rw [Ideal.matmul_constant_zero_apply, ← Equiv.sum_comp (contrEquiv1 dot_S128x512_S1024x512_S128x1024_1_1_0_0_n_n 512 rfl rfl).symm]
  refine Finset.sum_congr rfl fun k _ => ?_
  have hk := contrEquiv1_symm_val dot_S128x512_S1024x512_S128x1024_1_1_0_0_n_n 512 rfl rfl k
  have el : dot_S128x512_S1024x512_S128x1024_1_1_0_0_n_n.lhsIdx (ix2 p v) ((contrEquiv1 dot_S128x512_S1024x512_S128x1024_1_1_0_0_n_n 512 rfl rfl).symm k) = ix2 p k := funext fun a => Fin.ext (by
    match a with
    | ⟨0, _⟩ => exact dec_lhs_0 _ _
    | ⟨1, _⟩ => exact (dec_lhs_1 _ _).trans hk)
  have er : dot_S128x512_S1024x512_S128x1024_1_1_0_0_n_n.rhsIdx (ix2 p v) ((contrEquiv1 dot_S128x512_S1024x512_S128x1024_1_1_0_0_n_n 512 rfl rfl).symm k) = ix2 v k := funext fun a => Fin.ext (by
    match a with
    | ⟨0, _⟩ => exact dec_rhs_0 _ _
    | ⟨1, _⟩ => exact (dec_rhs_1 _ _).trans hk)
  rw [el, er]

/-- The encoder tile's product at `(t, v)`: row `t` of the tile against row `v` of the weight half. -/
theorem enc_matmul_apply (l : FVec Ideal S16x512 .bf16) (r : FVec Ideal S1024x512 .bf16) (p : Fin 16) (v : Fin 1024) :
    matmul dot_S16x512_S1024x512_S16x1024_1_1_0_0_n_n none l r (constant (F := Ideal) S16x1024 .f32 0x00000000#32) (ix2 p v)
      = ∑ d : Fin 512, l (ix2 p d) * r (ix2 v d) := by
  simp only [matmul]
  rw [Ideal.matmul_constant_zero_apply, ← Equiv.sum_comp (contrEquiv1 dot_S16x512_S1024x512_S16x1024_1_1_0_0_n_n 512 rfl rfl).symm]
  refine Finset.sum_congr rfl fun k _ => ?_
  have hk := contrEquiv1_symm_val dot_S16x512_S1024x512_S16x1024_1_1_0_0_n_n 512 rfl rfl k
  have el : dot_S16x512_S1024x512_S16x1024_1_1_0_0_n_n.lhsIdx (ix2 p v) ((contrEquiv1 dot_S16x512_S1024x512_S16x1024_1_1_0_0_n_n 512 rfl rfl).symm k) = ix2 p k := funext fun a => Fin.ext (by
    match a with
    | ⟨0, _⟩ => exact enc_lhs_0 _ _
    | ⟨1, _⟩ => exact (enc_lhs_1 _ _).trans hk)
  have er : dot_S16x512_S1024x512_S16x1024_1_1_0_0_n_n.rhsIdx (ix2 p v) ((contrEquiv1 dot_S16x512_S1024x512_S16x1024_1_1_0_0_n_n 512 rfl rfl).symm k) = ix2 v k := funext fun a => Fin.ext (by
    match a with
    | ⟨0, _⟩ => exact enc_rhs_0 _ _
    | ⟨1, _⟩ => exact (enc_rhs_1 _ _).trans hk)
  rw [el, er]

/-! ## The stored values at an index -/

/-- What the body stores into the scratch at `(u, v)`: the decoder block's row `u` against the weight half's row `v`. -/
theorem scratch_payload_apply (x1 : Vec Ideal S1x128x512 .bf16) (x3 : Vec Ideal S1024x512 .bf16) (u : Fin 128) (v : Fin 1024) :
    k0_pay1 (F := Ideal) x1 x3 (ix2 u v) = ∑ d : Fin 512, x1 (ix3 (0 : Fin 1) u d) * x3 (ix2 v d) := by
  unfold k0_pay1
  simp only [shapeCast_self]
  rw [dec_matmul_apply]
  refine Finset.sum_congr rfl fun d _ => ?_
  rw [shapeCast_1ab_ab_apply]

/-- What the body stores into the output tile at `(t, u, v)`: the encoder tile's row `t` against the weight half's row
    `v`, plus the scratch at `(u, v)`. -/
theorem out_payload_apply (x0 : Vec Ideal S1x16x512 .bf16) (x2 : Vec Ideal S1024x512 .bf16) (xs : Vec Ideal S128x1024 .f32)
    (z : Fin 1) (t : Fin 16) (u : Fin 128) (v : Fin 1024) :
    k0_pay2 (F := Ideal) x0 x2 xs (ix4 z t u v)
      = (∑ d : Fin 512, x0 (ix3 (0 : Fin 1) t d) * x2 (ix2 v d)) + xs (ix2 u v) := by
  unfold k0_pay2
  simp only [shapeCast_self]
  rw [shapeCast_abc_1abc_apply, addf_apply]
  congr 1
  · rw [broadcastTo_apply _ broadcasts_S16x1x1024_S16x128x1024 (ix3 t u v) (ix3 t (0 : Fin 1) v) (fun a => match a with
      | ⟨0, _⟩ => by show t.val = if (16 : Nat) = 1 then 0 else t.val; rw [if_neg (by decide)]
      | ⟨1, _⟩ => by show 0 = if (1 : Nat) = 1 then 0 else u.val; rw [if_pos rfl]
      | ⟨2, _⟩ => by show v.val = if (1024 : Nat) = 1 then 0 else v.val; rw [if_neg (by decide)])]
    rw [shapeCast_apply _ shapeCasts_S16x1024_S16x1x1024 (ix3 t (0 : Fin 1) v) (ix2 t v) (by
      rw [Shape.rowMajor_val_two, Shape.rowMajor_val_three]
      show t.val * 1024 + v.val = (t.val * 1 + 0) * 1024 + v.val
      omega)]
    rw [enc_matmul_apply]
    refine Finset.sum_congr rfl fun d _ => ?_
    rw [shapeCast_1ab_ab_apply]
  · rw [broadcastTo_apply _ broadcasts_S1x128x1024_S16x128x1024 (ix3 t u v) (ix3 (0 : Fin 1) u v) (fun a => match a with
      | ⟨0, _⟩ => by show 0 = if (1 : Nat) = 1 then 0 else t.val; rw [if_pos rfl]
      | ⟨1, _⟩ => by show u.val = if (128 : Nat) = 1 then 0 else u.val; rw [if_neg (by decide)]
      | ⟨2, _⟩ => by show v.val = if (1024 : Nat) = 1 then 0 else v.val; rw [if_neg (by decide)])]
    rw [shapeCast_ab_1ab_apply]

end Cert.KernelIdeal.Payload

end
-- ==== Proof.KernelPieces.lean ====
/-
  What one run of the kernel body leaves behind, as values.

  The body runs in one of two ways, by the tile index inside the batch entry.  At the first tile of a batch entry it first
  stores the decoder product into the scratch and then stores the output tile, whose second summand is the scratch it
  has just written; at every other tile it stores nothing into the scratch and the output tile's second summand is the
  scratch as the previous point left it.  Each buffer is written by ONE store covering it whole, so what it ends holding
  is that store's value, and a load of a whole buffer returns the buffer's contents.
-/
import proofs.«122374_j47897475285549_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a store or load at the buffer's origin, at ranks 2, 3 and 4. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At the first tile of a batch entry the scratch ends holding the stored decoder product of the point's decoder block
    and decoder weight half. -/
theorem scratch_A (c : Dev nD) (i : grid0.Coords) (a2 : Memref sig .tc .vmem S1x16x512 .bf16) (h2 : a2.IsWhole) (a3 : Memref sig .tc .vmem S1x128x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1x16x128x1024 .f32) (h6 : a6.IsWhole) (a7 : Memref sig .tc .vmem S128x1024 .f32) (h7 : a7.IsWhole) (hc : cond0_0 i) (x0 : Vec F S1x16x512 .bf16) (x1 : Vec F S1x128x512 .bf16) (x2 : Vec F S1024x512 .bf16) (x3 : Vec F S1024x512 .bf16) :
    sout0_A_0 c i a2 h2 a3 h3 a4 h4 a5 h5 a6 h6 a7 h7 hc x0 x1 x2 x3 = k0_pay1 x1 x3 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero hz2]
  simp only [View.readAt_eq_ld, h3.read_unread, h5.read_unread, View.ld_unit_zero (S := S1x128x512) hz3, View.ld_unit_zero (S := S1024x512) hz2]

/-- At the first tile of a batch entry the output tile is the stored sum over the point's encoder tile, encoder weight
    half, and the scratch as the same run has just written it. -/
theorem out_A (c : Dev nD) (i : grid0.Coords) (a2 : Memref sig .tc .vmem S1x16x512 .bf16) (h2 : a2.IsWhole) (a3 : Memref sig .tc .vmem S1x128x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1x16x128x1024 .f32) (h6 : a6.IsWhole) (a7 : Memref sig .tc .vmem S128x1024 .f32) (h7 : a7.IsWhole) (hc : cond0_0 i) (x0 : Vec F S1x16x512 .bf16) (x1 : Vec F S1x128x512 .bf16) (x2 : Vec F S1024x512 .bf16) (x3 : Vec F S1024x512 .bf16) :
    out0_A_4 c i a2 h2 a3 h3 a4 h4 a5 h5 a6 h6 a7 h7 hc x0 x1 x2 x3 = k0_pay2 x0 x2 (k0_pay1 x1 x3) := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero hz4]
  simp only [View.readAt_eq_ld, h2.read_unread, h3.read_unread, h4.read_unread, h5.read_unread, View.readCov_unit_zero (S := S128x1024) _ hz2,
    View.ld_unit_zero (S := S1x16x512) hz3, View.ld_unit_zero (S := S1x128x512) hz3, View.ld_unit_zero (S := S1024x512) hz2]

/-- At every other tile the output tile is the stored sum over the point's encoder tile, encoder weight half, and the
    scratch as the previous point left it (`xs0`). -/
theorem out_B (c : Dev nD) (i : grid0.Coords) (a2 : Memref sig .tc .vmem S1x16x512 .bf16) (h2 : a2.IsWhole) (a3 : Memref sig .tc .vmem S1x128x512 .bf16) (h3 : a3.IsWhole) (a4 : Memref sig .tc .vmem S1024x512 .bf16) (h4 : a4.IsWhole) (a5 : Memref sig .tc .vmem S1024x512 .bf16) (h5 : a5.IsWhole) (a6 : Memref sig .tc .vmem S1x16x128x1024 .f32) (h6 : a6.IsWhole) (a7 : Memref sig .tc .vmem S128x1024 .f32) (h7 : a7.IsWhole) (hc : ¬cond0_0 i) (x0 : Vec F S1x16x512 .bf16) (x1 : Vec F S1x128x512 .bf16) (x2 : Vec F S1024x512 .bf16) (x3 : Vec F S1024x512 .bf16) (xs0 : Vec F S128x1024 .f32) :
    out0_B_4 c i a2 h2 a3 h3 a4 h4 a5 h5 a6 h6 a7 h7 hc x0 x1 x2 x3 xs0 = k0_pay2 x0 x2 xs0 := by
  unfold out0_B_4
  rw [View.read_writes_eq_canon _ _ _ (cover0_B_4 c i a2 h2 a3 h3 a4 h4 a5 h5 a6 h6 a7 h7 hc x0 x1 x2 x3 xs0)]
  unfold kernelRun0_B
  dsimp only
  rw [View.canon_unit_zero hz4]
  simp only [View.readAt_eq_ld, h2.read_unread, h4.read_unread, h7.read_unread,
    View.ld_unit_zero (S := S1x16x512) hz3, View.ld_unit_zero (S := S1024x512) hz2, View.ld_unit_zero (S := S128x1024) hz2]

end Cert.KernelIdeal.Pieces
end
-- ==== Proof.KernelReads.lean ====
/-
  How the kernel's windows read the argument arrays.

  Before the pallas_call the host slices the fused weight into its two halves and changes the four operands' float
  format; on the extended reals a change of format is the identity, so the arrays the region finds are the arguments
  themselves (the encoder and decoder activations) and the two column halves of the weight.  The grid has 4 × 32
  points in row-major order: point `t` is batch entry `t / 32`, tile `t % 32`.  The encoder window's block at `t`
  is rows `16·(t % 32) … 16·(t % 32) + 15` of batch entry `t / 32`; the decoder window's block is the whole batch
  entry `t / 32`; the two weight windows' blocks are the whole halves; the output window's block is rows
  `16·(t % 32) …` of batch entry `t / 32` of the result.
-/
import proofs.«122374_j47897475285549_1_alg».proof.Proof.Gen.KernelIdeal.Frame
import proofs.«122374_j47897475285549_1_alg».proof.Proof.JointSpec
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.Reads

open Cert.KernelIdeal Cert.KernelIdeal.Gen Idealize.ShloMosaic.ValueIdx Cert.Joint

variable (m : (ℓ : Loc nD τ sig) → Buf (Elt Ideal) ℓ)

/-! ## The arrays the region finds -/

/-- The encoder activations, after the host's change of format, are the first argument. -/
theorem V_enc (c : Dev nD) : (V m c main_v4 : S4x512x512.Idx → EReal) = m ((c : Thread nD τ).loc main_arg0) := by
  dsimp only [Gen.V, Gen.hostOps0]; after_results; rfl

/-- The decoder activations, after the host's change of format, are the second argument. -/
theorem V_dec (c : Dev nD) : (V m c main_v5 : S4x128x512.Idx → EReal) = m ((c : Thread nD τ).loc main_arg1) := by
  dsimp only [Gen.V, Gen.hostOps0]; after_results; rfl

/-- The encoder half of the weight is the slice of the third argument's first 512 columns. -/
theorem V_wenc (c : Dev nD) : (V m c main_v1 : S1024x512.Idx → EReal)
    = extractStridedSlice S1024x512 ![0, 0] (m ((c : Thread nD τ).loc main_arg2)) slices_S1024x1024_S1024x512_0_0 := by
  dsimp only [Gen.V, Gen.hostOps0]; after_results; rfl

/-- The decoder half of the weight is the slice of the third argument's last 512 columns. -/
theorem V_wdec (c : Dev nD) : (V m c main_v3 : S1024x512.Idx → EReal)
    = extractStridedSlice S1024x512 ![0, 512] (m ((c : Thread nD τ).loc main_arg2)) slices_S1024x1024_S1024x512_0_512 := by
  dsimp only [Gen.V, Gen.hostOps0]; after_results; rfl

/-! ## The index maps over the grid -/

/-- Point `t` is batch entry `t / 32`, tile `t % 32`: the block index of every window at `t`, decided over the 128
    points. -/
theorem idx_facts : ∀ t : Fin cfg0.N,
    win0_0.index t (0 : Fin 3) = t.val / 32 ∧ win0_0.index t (1 : Fin 3) = t.val % 32 ∧ win0_0.index t (2 : Fin 3) = 0
    ∧ win0_1.index t (0 : Fin 3) = t.val / 32 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = t.val / 32 ∧ win0_4.index t (1 : Fin 4) = t.val % 32
    ∧ win0_4.index t (2 : Fin 4) = 0 ∧ win0_4.index t (3 : Fin 4) = 0 :=
  (by decide +kernel : ∀ t : Fin grid0.N, _)

/-! ## The windows' blocks, at their literal types -/

/-- The encoder tile at point `t`. -/
abbrev encBlk (c : Dev nD) (t : Fin cfg0.N) : Vec Ideal S1x16x512 .bf16 := iblk m c 0 t
/-- The decoder block at point `t`. -/
abbrev decBlk (c : Dev nD) (t : Fin cfg0.N) : Vec Ideal S1x128x512 .bf16 := iblk m c 1 t
/-- The weight's encoder half as point `t` has it. -/
abbrev wencBlk (c : Dev nD) (t : Fin cfg0.N) : Vec Ideal S1024x512 .bf16 := iblk m c 2 t
/-- The weight's decoder half as point `t` has it. -/
abbrev wdecBlk (c : Dev nD) (t : Fin cfg0.N) : Vec Ideal S1024x512 .bf16 := iblk m c 3 t

/-- Row `r` of the encoder tile at point `t` is row `16·(t % 32) + r` of batch entry `t / 32` of the first argument. -/
theorem encBlk_apply (c : Dev nD) (t : Fin cfg0.N) (z : Fin 1) (r : Fin 16) (d : Fin 512) (b : Fin 4) (row : Fin 512)
    (hb : b.val = t.val / 32) (hrow : row.val = 16 * (t.val % 32) + r.val) :
    encBlk m c t (ix3 z r d) = m ((c : Thread nD τ).loc main_arg0) (ix3 b row d) := by
  obtain ⟨e00, e01, e02, -⟩ := idx_facts t
  show V m c main_v4 (((cfg0.win 0).blk t).view.emb (ix3 z r d)) = _
  rw [V_enc]
  refine congrArg _ (funext fun a => Fin.ext ?_)
  have hz : z.val = 0 := by omega
  match a with
  | ⟨0, _⟩ => show win0_0.index t (0 : Fin 3) * 1 + 1 * z.val = b.val; omega
  | ⟨1, _⟩ => show win0_0.index t (1 : Fin 3) * 16 + 1 * r.val = row.val; omega
  | ⟨2, _⟩ => show win0_0.index t (2 : Fin 3) * 512 + 1 * d.val = d.val; omega

/-- Row `u` of the decoder block at point `t` is row `u` of batch entry `t / 32` of the second argument. -/
theorem decBlk_apply (c : Dev nD) (t : Fin cfg0.N) (z : Fin 1) (u : Fin 128) (d : Fin 512) (b : Fin 4)
    (hb : b.val = t.val / 32) :
    decBlk m c t (ix3 z u d) = m ((c : Thread nD τ).loc main_arg1) (ix3 b u d) := by
  obtain ⟨-, -, -, e10, e11, e12, -⟩ := idx_facts t
  show V m c main_v5 (((cfg0.win 1).blk t).view.emb (ix3 z u d)) = _
  rw [V_dec]
  refine congrArg _ (funext fun a => Fin.ext ?_)
  have hz : z.val = 0 := by omega
  match a with
  | ⟨0, _⟩ => show win0_1.index t (0 : Fin 3) * 1 + 1 * z.val = b.val; omega
  | ⟨1, _⟩ => show win0_1.index t (1 : Fin 3) * 128 + 1 * u.val = u.val; omega
  | ⟨2, _⟩ => show win0_1.index t (2 : Fin 3) * 512 + 1 * d.val = d.val; omega

/-- Entry `(v, d)` of the weight's encoder half, at any point, is the third argument at row `v`, column `d`. -/
theorem wencBlk_apply (c : Dev nD) (t : Fin cfg0.N) (v : Fin 1024) (d : Fin 512) :
    wencBlk m c t (ix2 v d) = m ((c : Thread nD τ).loc main_arg2) (ix2 v (encCol d)) := by
  obtain ⟨-, -, -, -, -, -, e20, e21, -⟩ := idx_facts t
  show V m c main_v1 (((cfg0.win 2).blk t).view.emb (ix2 v d)) = _
  rw [V_wenc]
  refine extractStridedSlice_apply _ _ _ _ _ (fun a => ?_)
  match a with
  | ⟨0, _⟩ => show v.val = 0 + (win0_2.index t (0 : Fin 2) * 1024 + 1 * v.val); omega
  | ⟨1, _⟩ => show d.val = 0 + (win0_2.index t (1 : Fin 2) * 512 + 1 * d.val); omega

/-- Entry `(v, d)` of the weight's decoder half, at any point, is the third argument at row `v`, column `512 + d`. -/
theorem wdecBlk_apply (c : Dev nD) (t : Fin cfg0.N) (v : Fin 1024) (d : Fin 512) :
    wdecBlk m c t (ix2 v d) = m ((c : Thread nD τ).loc main_arg2) (ix2 v (decCol d)) := by
  obtain ⟨-, -, -, -, -, -, -, -, e30, e31, -⟩ := idx_facts t
  show V m c main_v3 (((cfg0.win 3).blk t).view.emb (ix2 v d)) = _
  rw [V_wdec]
  refine extractStridedSlice_apply _ _ _ _ _ (fun a => ?_)
  match a with
  | ⟨0, _⟩ => show v.val = 0 + (win0_3.index t (0 : Fin 2) * 1024 + 1 * v.val); omega
  | ⟨1, _⟩ => show 512 + d.val = 512 + (win0_3.index t (1 : Fin 2) * 512 + 1 * d.val); omega

end Cert.KernelIdeal.Reads
end
-- ==== Proof.KernelValue.lean ====
/-
  The kernel's result array, as one function of the arguments.

  Going through the grid in order, the scratch after point `n` holds the decoder projection of batch entry `n / 32`: the
  first tile of a batch entry stores it, and the 31 tiles that follow leave it alone.  So at every point the output
  tile is the encoder projection of the tile's rows plus the decoder projection of the tile's batch entry, that is, the
  block of `joint` the point writes back; the 128 blocks tile the result, which therefore ends holding `joint` of the
  arguments.
-/
import proofs.«122374_j47897475285549_1_alg».proof.Proof.Gen.KernelIdeal.Value
import proofs.«122374_j47897475285549_1_alg».proof.Proof.JointSpec
import proofs.«122374_j47897475285549_1_alg».proof.Proof.KernelPayload
import proofs.«122374_j47897475285549_1_alg».proof.Proof.KernelPieces
import proofs.«122374_j47897475285549_1_alg».proof.Proof.KernelReads

noncomputable section

open scoped BigOperators
open Idealize.ShloMosaic Idealize.ShloMosaic.TcCoe Idealize.SL.Sem
open Idealize.ShloMosaic.Pipeline (Dat)

namespace Cert.KernelIdeal.JointValue

open Cert.KernelIdeal Cert.KernelIdeal.Gen Idealize.ShloMosaic.ValueIdx Cert.Joint
open Cert.KernelIdeal.Reads Cert.KernelIdeal.Payload Cert.KernelIdeal.Pieces

variable (m : (ℓ : Loc nD τ sig) → Buf (Elt Ideal) ℓ) (ρ : Dev nD → PrngReg)

/-- The three arguments, on core `c`. -/
abbrev enc (c : Dev nD) : S4x512x512.Idx → EReal := m ((c : Thread nD τ).loc main_arg0)
abbrev dec (c : Dev nD) : S4x128x512.Idx → EReal := m ((c : Thread nD τ).loc main_arg1)
abbrev wgt (c : Dev nD) : S1024x1024.Idx → EReal := m ((c : Thread nD τ).loc main_arg2)

/-- What the first tile of a batch entry stores into the scratch: the decoder projection of that batch entry. -/
theorem scratch_store (c : Dev nD) (t : Fin cfg0.N) (b : Fin 4) (hb : b.val = t.val / 32) (u : Fin 128) (v : Fin 1024) :
    k0_pay1 (F := Ideal) (decBlk m c t) (wdecBlk m c t) (ix2 u v) = decProj (dec m c) (wgt m c) b u v := by
  rw [scratch_payload_apply]
  unfold decProj
  refine Finset.sum_congr rfl fun d _ => ?_
  rw [decBlk_apply m c t 0 u d b hb, wdecBlk_apply]

/-- THE SCRATCH AFTER POINT `n` is the decoder projection of batch entry `n / 32`, by induction on the point. -/
theorem scratch_eq (c : Dev nD) : ∀ (n : ℕ) (h : n < cfg0.N) (b : Fin 4), b.val = n / 32 → ∀ (u : Fin 128) (v : Fin 1024),
    (outsAt0 m c n h).2 (ix2 u v) = decProj (dec m c) (wgt m c) b u v := by
  intro n
  induction n with
  | zero =>
    intro h b hb u v
    have h0 : (⟨0, h⟩ : Fin cfg0.N).val % 32 = 0 := rfl
    rw [outsAt0_A m c ⟨0, h⟩ h0]
    dsimp only
    rw [scratch_A]
    exact scratch_store m c ⟨0, h⟩ b hb u v
  | succ n ih =>
    intro h b hb u v
    by_cases h0 : (n + 1) % 32 = 0
    · rw [outsAt0_A m c ⟨n + 1, h⟩ h0]
      dsimp only
      rw [scratch_A]
      exact scratch_store m c ⟨n + 1, h⟩ b hb u v
    · rw [outsAt0_B m c ⟨n + 1, h⟩ h0]
      dsimp only
      unfold sout0_B_0
      exact ih _ b (by omega) u v

/-- An output tile whose second summand is the decoder projection of the point's batch entry is the point's block of
    `joint`: its row `r` is row `16·(t % 32) + r` of batch entry `t / 32`. -/
theorem tile_eq (c : Dev nD) (t : Fin cfg0.N) (b : Fin 4) (hb : b.val = t.val / 32) (xs : Vec Ideal S128x1024 .f32)
    (hxs : ∀ (u : Fin 128) (v : Fin 1024), xs (ix2 u v) = decProj (dec m c) (wgt m c) b u v) :
    (cfg0.win 4).cut (grid0.coords t) (k0_pay2 (F := Ideal) (encBlk m c t) (wencBlk m c t) xs)
      = ((cfg0.win 4).blk t).view.read (Elt Ideal) (joint (enc m c) (dec m c) (wgt m c)) := by
  have hN : t.val < 128 := lt_of_lt_of_eq t.isLt (show cfg0.N = 128 from N_0)
  obtain ⟨-, -, -, -, -, -, -, -, -, -, e40, e41, e42, e43⟩ := idx_facts t
  funext y
  have hy0 : (y 0).val < 1 := (y 0).isLt
  have hy1 : (y 1).val < 16 := (y 1).isLt
  have hy2 : (y 2).val < 128 := (y 2).isLt
  have hy3 : (y 3).val < 1024 := (y 3).isLt
  show k0_pay2 (F := Ideal) (encBlk m c t) (wencBlk m c t) xs ((cfg0.win 4).xinj (grid0.coords t) y)
    = joint (enc m c) (dec m c) (wgt m c) (((cfg0.win 4).blk t).view.emb y)
  have e1 : (cfg0.win 4).xinj (grid0.coords t) y
      = ix4 (⟨(y 0).val, hy0⟩ : Fin 1) (⟨(y 1).val, hy1⟩ : Fin 16) (⟨(y 2).val, hy2⟩ : Fin 128) (⟨(y 3).val, hy3⟩ : Fin 1024) :=
    funext fun a => Fin.ext (by
      match a with
      | ⟨0, _⟩ => rfl
      | ⟨1, _⟩ => rfl
      | ⟨2, _⟩ => rfl
      | ⟨3, _⟩ => rfl)
  have e2 : ((cfg0.win 4).blk t).view.emb y
      = ix4 b (⟨16 * (t.val % 32) + (y 1).val, by omega⟩ : Fin 512) (⟨(y 2).val, hy2⟩ : Fin 128) (⟨(y 3).val, hy3⟩ : Fin 1024) :=
    funext fun a => Fin.ext (by
      match a with
      | ⟨0, _⟩ => show win0_4.index t (0 : Fin 4) * 1 + 1 * (y 0).val = b.val; omega
      | ⟨1, _⟩ => show win0_4.index t (1 : Fin 4) * 16 + 1 * (y 1).val = 16 * (t.val % 32) + (y 1).val; omega
      | ⟨2, _⟩ => show win0_4.index t (2 : Fin 4) * 128 + 1 * (y 2).val = (y 2).val; omega
      | ⟨3, _⟩ => show win0_4.index t (3 : Fin 4) * 1024 + 1 * (y 3).val = (y 3).val; omega)
  rw [e1, e2, out_payload_apply, joint_ix4, hxs]
  congr 1
  unfold encProj
  refine Finset.sum_congr rfl fun d _ => ?_
  rw [encBlk_apply m c t 0 ⟨(y 1).val, hy1⟩ d b ⟨16 * (t.val % 32) + (y 1).val, by omega⟩ hb rfl, wencBlk_apply]

/-- WHAT POINT `t` WRITES BACK is block `t` of `joint` of the arguments. -/
theorem flushed_eq (c : Dev nD) (t : Fin cfg0.N) :
    (dats m 0 c).flushed 4 t = ((cfg0.win 4).blk t).view.read (Elt Ideal) (joint (enc m c) (dec m c) (wgt m c)) := by
  have hN : t.val < 128 := lt_of_lt_of_eq t.isLt (show cfg0.N = 128 from N_0)
  by_cases h0 : t.val % 32 = 0
  · rw [Value.flushed4_A m c t h0, out_A]
    exact tile_eq m c t ⟨t.val / 32, by omega⟩ rfl _ (fun u v => scratch_store m c t _ rfl u v)
  · rw [Value.flushed4_B m c t h0, out_B]
    exact tile_eq m c t ⟨t.val / 32, by omega⟩ rfl _ (fun u v => scratch_eq m c (t.val - 1) _ _ (by show t.val / 32 = (t.val - 1) / 32; omega) u v)

/-- An index of the result is in point `t`'s block iff each coordinate is in the block's range on its axis. -/
theorem mem_blk (t : Fin cfg0.N) (i : S4x512x128x1024.Idx) :
    i ∈ ((cfg0.win 4).blk t).view.set ↔ ∀ a : Fin 4, win0_4.index t a * S1x16x128x1024.size a ≤ (i a).val
      ∧ (i a).val < win0_4.index t a * S1x16x128x1024.size a + S1x16x128x1024.size a := by
  show i ∈ ((View.whole main_v6).slice (win0_4.rect t)).set ↔ _
  rw [View.set_slice_whole, Rect.mem_set_unit]
  exact Iff.rfl

/-- Every index `(b, row, u, v)` of the result is in the block of the point `32·b + row / 16`. -/
theorem cover (i : S4x512x128x1024.Idx) :
    ∃ t : Fin cfg0.N, (cfg0.win 4).flush t = true ∧ i ∈ ((cfg0.win 4).blk t).view.set := by
  have h0 : (i 0).val < 4 := (i 0).isLt
  have h1 : (i 1).val < 512 := (i 1).isLt
  have h2 : (i 2).val < 128 := (i 2).isLt
  have h3 : (i 3).val < 1024 := (i 3).isLt
  have hN : cfg0.N = 128 := N_0
  obtain ⟨t, tv⟩ : ∃ t : Fin cfg0.N, t.val = 32 * (i 0).val + (i 1).val / 16 :=
    ⟨⟨32 * (i 0).val + (i 1).val / 16, by rw [hN]; omega⟩, rfl⟩
  obtain ⟨-, -, -, -, -, -, -, -, -, -, e40, e41, e42, e43⟩ := idx_facts t
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 128 ≤ (i 2).val ∧ (i 2).val < win0_4.index t (2 : Fin 4) * 128 + 128; omega
  | ⟨3, _⟩ => show win0_4.index t (3 : Fin 4) * 1024 ≤ (i 3).val ∧ (i 3).val < win0_4.index t (3 : Fin 4) * 1024 + 1024; omega

/-- THE RESULT ARRAY after the run is `joint` of the arguments. -/
theorem final (c : Dev nD) : (dats m 0 c).arrAt 4 cfg0.N = joint (enc m c) (dec m c) (wgt m c) :=
  (dats m 0 c).arrAt_eq_of_cover 4 (joint (enc m c) (dec m c) (wgt m c)) (fun t _ => flushed_eq m c t) cover

/-- The run, read: the result at `joint` of the arguments, the arguments unchanged. -/
theorem run : θ_run defs (onTc (τ := τ) (main (F := Ideal))) ⟨m, fun _ => 0, ρ⟩ fun r => ∀ c : Dev nD,
      r.2.mem ((c : Thread nD τ).loc main_v6) = joint (enc m c) (dec m c) (wgt m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.JointValue
end
-- ==== Proof.RefIsJoint.lean ====
/-
  The reference's result is `joint` of its arguments.

  The reference slices the fused weight into its two column halves, contracts the encoder activations with the first
  half and the decoder activations with the second over the 512 features (two `dot_general`s, on the extended reals the
  plain sums of products), inserts a unit axis into each product, broadcasts both to `[4, 512, 128, 1024]` and adds them.
  Read at `(b, t, u, v)`: the first product at `(b, t, v)` plus the second at `(b, u, v)`.
-/
import proofs.«122374_j47897475285549_1_alg».proof.Proof.Gen.ReferenceIdeal.Read
import proofs.«122374_j47897475285549_1_alg».proof.Proof.JointSpec

noncomputable section

open scoped BigOperators

namespace Cert.ReferenceIdeal.JointValue

open Cert.ReferenceIdeal Cert.ReferenceIdeal.Read Idealize.ShloMosaic Idealize.ShloMosaic.ValueIdx Cert.Joint

/-- Through the two broadcasts and the product's left operand, index `(b, t, u, v)` reads the encoder activations at
    `(b, t, k)`. -/
theorem enc_left (i : S4x512x128x1024.Idx) (k : Fin 512) :
    lidx_main_v2 (idx_main_v4 (idx_main_v6 i)) k = ix3 (i 0) (i 1) k :=
  funext fun a => Fin.ext (by match a with | ⟨0, _⟩ => rfl | ⟨1, _⟩ => rfl | ⟨2, _⟩ => rfl)

/-- … and, through the slice, the weight at row `v`, column `k`. -/
theorem enc_right (i : S4x512x128x1024.Idx) (k : Fin 512) :
    idx_main_v0 (ridx_main_v2 (idx_main_v4 (idx_main_v6 i)) k) = ix2 (i 3) (encCol k) :=
  funext fun a => Fin.ext (by match a with | ⟨0, _⟩ => rfl | ⟨1, _⟩ => rfl)

/-- Through the two broadcasts and the second product's left operand, index `(b, t, u, v)` reads the decoder
    activations at `(b, u, k)`. -/
theorem dec_left (i : S4x512x128x1024.Idx) (k : Fin 512) :
    lidx_main_v3 (idx_main_v5 (idx_main_v7 i)) k = ix3 (i 0) (i 2) k :=
  funext fun a => Fin.ext (by match a with | ⟨0, _⟩ => rfl | ⟨1, _⟩ => rfl | ⟨2, _⟩ => rfl)

/-- … and, through the slice, the weight at row `v`, column `512 + k`. -/
theorem dec_right (i : S4x512x128x1024.Idx) (k : Fin 512) :
    idx_main_v1 (ridx_main_v3 (idx_main_v5 (idx_main_v7 i)) k) = ix2 (i 3) (decCol k) :=
  funext fun a => Fin.ext (by match a with | ⟨0, _⟩ => rfl | ⟨1, _⟩ => rfl)

/-- The reference's last stage, on the extended reals, is `joint` of the three arguments. -/
theorem result_eq (x0 : S4x512x512.Idx → EReal) (x1 : S4x128x512.Idx → EReal) (x2 : S1024x1024.Idx → EReal) :
    val_main_v8 (F := Ideal) x0 x1 x2 = joint x0 x1 x2 := by
  funext i
  rw [val_main_v8_apply, val_main_v6_apply, val_main_v4_apply, val_main_v2_apply, val_main_v7_apply, val_main_v5_apply,
    val_main_v3_apply]
  simp only [val_main_v0_apply, val_main_v1_apply, enc_left, enc_right, dec_left, dec_right]
  rfl

end Cert.ReferenceIdeal.JointValue

end
-- ==== Proof.lean ====
/-
  The certificate of the joint network kernel against its reference.

  Both programs compute, on the extended reals,

      out[b, t, u, v] = (∑ d, enc[b, t, d] · w[v, d]) + (∑ d, dec[b, u, d] · w[v, 512 + d])

  (`Cert.Joint.joint`, Proof/JointSpec.lean).  The kernel tiles the `t` axis by 16, keeps the second sum for the current
  batch entry in a scratch buffer it fills at the batch entry's first tile, and changes the operands' float format on
  the way in, which is the identity on the extended reals; the reference forms the two products whole and broadcasts
  them.  Neither side rearranges a sum, so the two results are equal term by term and the inputs' finiteness is never
  used.

    Proof/KernelPayload.lean  the two stored values of the body read at an index
    Proof/KernelPieces.lean   what each of the body's two runs leaves in the output tile and in the scratch
    Proof/KernelReads.lean    the arrays the region finds and each window's block, read from the arguments
    Proof/KernelValue.lean    the scratch after every point, each point's tile, the tiles' cover, the run
    Proof/RefIsJoint.lean     the reference's last stage is `joint`

  The three frames: the two kernels' are the generated frame runs; the reference's is its run with the result dropped.
  The idealization rewrote nothing, so `preserves` is `True`.
-/
import proofs.«122374_j47897475285549_1_alg».proof.Defs
import proofs.«122374_j47897475285549_1_alg».proof.Proof.Gen.Kernel
import proofs.«122374_j47897475285549_1_alg».proof.Proof.Gen.Kernel.Skeleton
import proofs.«122374_j47897475285549_1_alg».proof.Proof.Gen.Kernel.Launch
import proofs.«122374_j47897475285549_1_alg».proof.Proof.Gen.Kernel.Points
import proofs.«122374_j47897475285549_1_alg».proof.Proof.Gen.Kernel.Frame
import proofs.«122374_j47897475285549_1_alg».proof.Proof.Gen.KernelIdeal
import proofs.«122374_j47897475285549_1_alg».proof.Proof.Gen.KernelIdeal.Skeleton
import proofs.«122374_j47897475285549_1_alg».proof.Proof.Gen.KernelIdeal.Launch
import proofs.«122374_j47897475285549_1_alg».proof.Proof.Gen.KernelIdeal.Points
import proofs.«122374_j47897475285549_1_alg».proof.Proof.Gen.KernelIdeal.Frame
import proofs.«122374_j47897475285549_1_alg».proof.Proof.Gen.ReferenceIdeal
import proofs.«122374_j47897475285549_1_alg».proof.Proof.Gen.Pre_finite_inputs
import proofs.«122374_j47897475285549_1_alg».proof.Proof.Gen.KernelIdeal.Value
import proofs.«122374_j47897475285549_1_alg».proof.Proof.Gen.ReferenceIdeal.Run
import proofs.«122374_j47897475285549_1_alg».proof.Proof.Gen.ReferenceIdeal.Read
import proofs.«122374_j47897475285549_1_alg».proof.Proof.KernelValue
import proofs.«122374_j47897475285549_1_alg».proof.Proof.RefIsJoint
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result ends at `joint` of its arguments, the reference's at `joint` of its own, and the arguments
    agree. -/
theorem algebraic : Cert.algebraic_KernelIdeal_ReferenceIdeal := by
  intro m ρ m' ρ' _ hagree
  refine ⟨_, Cert.KernelIdeal.JointValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.JointValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
